-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x16 : Shape := ⟨2, ![2048, 16]⟩
abbrev S16384x16 : Shape := ⟨2, ![16384, 16]⟩
abbrev S_ : Shape := ⟨0, ![]⟩

class Facts : Prop where
  bcast_S_S2048x16 : S_.BroadcastsInDim S2048x16 (![] : Fin 0 → Fin S2048x16.rank)
  reducesTo_S2048x16_S_d0_1 : S2048x16.ReducesTo [0, 1] S_
  h_S_ : 0 < S_.numel
  bcast_S_S16384x16 : S_.BroadcastsInDim S16384x16 (![] : Fin 0 → Fin S16384x16.rank)
  reducesTo_S16384x16_S_d0_1 : S16384x16.ReducesTo [0, 1] S_

variable [Facts]

def fn_part1 {F : FTy → Type} [FloatOps F] (main_v13 : IVec S_ 1) (main_v16 : IVec S16384x16 1) : IVec S_ 1 :=
  let main_c_5 : IVec S_ 1 := constantI S_ 1 1#1
  let main_v17 : IVec S_ 1 := (fun x v => Host.reduce IntOp.andi x v reducesTo_S16384x16_S_d0_1 h_S_) main_v16 main_c_5
  let main_v18 : IVec S_ 1 := andi main_v13 main_v17
  main_v18

def fn {F : FTy → Type} [FloatOps F] (main_arg0 : FVec F S2048x16 .f32) (main_arg1 : FVec F S2048x16 .f32) (main_arg2 : FVec F S16384x16 .f32) (main_arg3 : FVec F S16384x16 .f32) : IVec S_ 1 :=
  let main_v0 : FVec F S2048x16 .f32 := Host.absf main_arg0
  let main_cst : FVec F S_ .f32 := constant S_ .f32 0x7F800000#32
  let main_v1 : FVec F S2048x16 .f32 := broadcastInDim S2048x16 ![] bcast_S_S2048x16 main_cst
  let main_v2 : IVec S2048x16 1 := cmpf .olt main_v0 main_v1
  let main_c : IVec S_ 1 := constantI S_ 1 1#1
  let main_v3 : IVec S_ 1 := (fun x v => Host.reduce IntOp.andi x v reducesTo_S2048x16_S_d0_1 h_S_) main_v2 main_c
  let main_v4 : FVec F S2048x16 .f32 := Host.absf main_arg1
  let main_cst_0 : FVec F S_ .f32 := constant S_ .f32 0x7F800000#32
  let main_v5 : FVec F S2048x16 .f32 := broadcastInDim S2048x16 ![] bcast_S_S2048x16 main_cst_0
  let main_v6 : IVec S2048x16 1 := cmpf .olt main_v4 main_v5
  let main_c_1 : IVec S_ 1 := constantI S_ 1 1#1
  let main_v7 : IVec S_ 1 := (fun x v => Host.reduce IntOp.andi x v reducesTo_S2048x16_S_d0_1 h_S_) main_v6 main_c_1
  let main_v8 : IVec S_ 1 := andi main_v3 main_v7
  let main_v9 : FVec F S16384x16 .f32 := Host.absf main_arg2
  let main_cst_2 : FVec F S_ .f32 := constant S_ .f32 0x7F800000#32
  let main_v10 : FVec F S16384x16 .f32 := broadcastInDim S16384x16 ![] bcast_S_S16384x16 main_cst_2
  let main_v11 : IVec S16384x16 1 := cmpf .olt main_v9 main_v10
  let main_c_3 : IVec S_ 1 := constantI S_ 1 1#1
  let main_v12 : IVec S_ 1 := (fun x v => Host.reduce IntOp.andi x v reducesTo_S16384x16_S_d0_1 h_S_) main_v11 main_c_3
  let main_v13 : IVec S_ 1 := andi main_v8 main_v12
  let main_v14 : FVec F S16384x16 .f32 := Host.absf main_arg3
  let main_cst_4 : FVec F S_ .f32 := constant S_ .f32 0x7F800000#32
  let main_v15 : FVec F S16384x16 .f32 := broadcastInDim S16384x16 ![] bcast_S_S16384x16 main_cst_4
  let main_v16 : IVec S16384x16 1 := cmpf .olt main_v14 main_v15
  fn_part1 (F := F) main_v13 main_v16
-- ==== Kernel.lean ====
abbrev S2048x16 : Shape := ⟨2, ![2048, 16]⟩
abbrev S16384x16 : Shape := ⟨2, ![16384, 16]⟩
abbrev S2048x16384 : Shape := ⟨2, ![2048, 16384]⟩
abbrev S512x16 : Shape := ⟨2, ![512, 16]⟩
abbrev S1024x16 : Shape := ⟨2, ![1024, 16]⟩
abbrev S512x1024 : Shape := ⟨2, ![512, 1024]⟩

abbrev nBuf : Space → Nat
  | .hbm => 6
  | .vmem => 12
  | .smem => 0
  | _ => 0

abbrev bufTy : (tb : Table) → Fin (tcTables nBuf tb) → BufTy
  | .hbm, ⟨0, _⟩ => ⟨S2048x16, .f32⟩
  | .hbm, ⟨1, _⟩ => ⟨S2048x16, .f32⟩
  | .hbm, ⟨2, _⟩ => ⟨S16384x16, .f32⟩
  | .hbm, ⟨3, _⟩ => ⟨S16384x16, .f32⟩
  | .hbm, ⟨4, _⟩ => ⟨S2048x16384, .f32⟩
  | .hbm, ⟨5, _⟩ => ⟨S2048x16384, .f32⟩
  | .local _ .vmem, ⟨0, _⟩ => ⟨S512x16, .f32⟩
  | .local _ .vmem, ⟨1, _⟩ => ⟨S512x16, .f32⟩
  | .local _ .vmem, ⟨2, _⟩ => ⟨S512x16, .f32⟩
  | .local _ .vmem, ⟨3, _⟩ => ⟨S512x16, .f32⟩
  | .local _ .vmem, ⟨4, _⟩ => ⟨S1024x16, .f32⟩
  | .local _ .vmem, ⟨5, _⟩ => ⟨S1024x16, .f32⟩
  | .local _ .vmem, ⟨6, _⟩ => ⟨S1024x16, .f32⟩
  | .local _ .vmem, ⟨7, _⟩ => ⟨S1024x16, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | _, _ => ⟨S2048x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  inb_S512x16_S512x16_0_0 : ∀ a, (![0, 0] : Fin 2 → Nat) a + S512x16.size a ≤ S512x16.size a
  h_S512x16 : 0 < S512x16.numel
  inb_S1024x16_S1024x16_0_0 : ∀ a, (![0, 0] : Fin 2 → Nat) a + S1024x16.size a ≤ S1024x16.size a
  h_S1024x16 : 0 < S1024x16.numel
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  dot_S512x16_S1024x16_S512x1024_1_1_0_0_n_n_wf : DotDims.WF S512x16 S1024x16 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x16.size a ≤ S2048x16.size a
  hwx0_0 : ∀ i : grid0.Coords, EltTy.bits .f32 = 32 ∨ (Rect.block (s := S2048x16) S512x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S2048x16.size a
  hwx0_1 : ∀ i : grid0.Coords, EltTy.bits .f32 = 32 ∨ (Rect.block (s := S2048x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x16.size a ≤ S16384x16.size a
  hwx0_2 : ∀ i : grid0.Coords, EltTy.bits .f32 = 32 ∨ (Rect.block (s := S16384x16) S1024x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x16.size a ≤ S16384x16.size a
  hwx0_3 : ∀ i : grid0.Coords, EltTy.bits .f32 = 32 ∨ (Rect.block (s := S16384x16) S1024x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S2048x16384.size a
  hwx0_4 : ∀ i : grid0.Coords, EltTy.bits .f32 = 32 ∨ (Rect.block (s := S2048x16384) S512x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S2048x16384.size a
  hwx0_5 : ∀ i : grid0.Coords, EltTy.bits .f32 = 32 ∨ (Rect.block (s := S2048x16384) S512x1024.size (cc0_transform_5 i) (hinb0_5 i)).WholeWords (EltTy.packing .f32)

variable [Facts₀]

def dot_S512x16_S1024x16_S512x1024_1_1_0_0_n_n : DotDims S512x16 S1024x16 S512x1024 where
  lhsContracting := [1]
  rhsContracting := [1]
  lhsNonContracting := [0]
  rhsNonContracting := [0]
  lhsBatch := []
  rhsBatch := []
  wf := dot_S512x16_S1024x16_S512x1024_1_1_0_0_n_n_wf

abbrev win0_0 : Pipeline.Window sig grid0 :=
  Pipeline.Window.ofSpec (Memref.whole main_arg0) S512x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2048x16 : Shape := ⟨2, ![2048, 16]⟩
abbrev S16384x16 : Shape := ⟨2, ![16384, 16]⟩
abbrev S2048x16384 : Shape := ⟨2, ![2048, 16384]⟩

abbrev nBuf : Space → Nat
  | .hbm => 12
  | .vmem => 0
  | .smem => 0
  | _ => 0

abbrev bufTy : (tb : Table) → Fin (tcTables nBuf tb) → BufTy
  | .hbm, ⟨0, _⟩ => ⟨S2048x16, .f32⟩
  | .hbm, ⟨1, _⟩ => ⟨S2048x16, .f32⟩
  | .hbm, ⟨2, _⟩ => ⟨S16384x16, .f32⟩
  | .hbm, ⟨3, _⟩ => ⟨S16384x16, .f32⟩
  | .hbm, ⟨4, _⟩ => ⟨S2048x16384, .f32⟩
  | .hbm, ⟨5, _⟩ => ⟨S16384x16, .f32⟩
  | .hbm, ⟨6, _⟩ => ⟨S2048x16384, .f32⟩
  | .hbm, ⟨7, _⟩ => ⟨S2048x16, .f32⟩
  | .hbm, ⟨8, _⟩ => ⟨S2048x16384, .f32⟩
  | .hbm, ⟨9, _⟩ => ⟨S2048x16384, .f32⟩
  | .hbm, ⟨10, _⟩ => ⟨S2048x16384, .f32⟩
  | .hbm, ⟨11, _⟩ => ⟨S2048x16384, .f32⟩
  | _, _ => ⟨S2048x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  dot_S2048x16_S16384x16_S2048x16384_1_1_0_0_n_n_wf : DotDims.WF S2048x16 S16384x16 S2048x16384 [1] [1] [0] [0] [] []

variable [Facts₀]

def dot_S2048x16_S16384x16_S2048x16384_1_1_0_0_n_n : DotDims S2048x16 S16384x16 S2048x16384 where
  lhsContracting := [1]
  rhsContracting := [1]
  lhsNonContracting := [0]
  rhsNonContracting := [0]
  lhsBatch := []
  rhsBatch := []
  wf := dot_S2048x16_S16384x16_S2048x16384_1_1_0_0_n_n_wf

class Facts : Prop extends Facts₀ where

variable [Facts]
-- ==== Proof.LibDotFormats.lean ====
/-
  Matrix products with ONE contracted axis, read at an index, for operands of any float formats.

  Two arrangements of the dimension numbers of a rank-2 product without batch axes:
  * rows by columns: an `A × K` left operand against a `K × B` right operand, the left operand's second axis
    contracted against the right operand's first; entry `(p, q)` is `∑ k, f (p, k) · g (k, q)`;
  * rows by rows: an `A × K` left operand against a `B × K` right operand, the second axis of both contracted
    (the right operand enters transposed); entry `(p, q)` is `∑ k, f (p, k) · g (q, k)`.
  In both the contraction index has the one coordinate `k : Fin K`. Any record with those dimension numbers is
  the library's `DotDims.plain`, respectively `DotDims.transposedRhs`, for which the operand indices compute.
  The operands' element formats are arbitrary (at the ideal values every format is the extended reals), so the
  statements serve a product of half-precision operands accumulated in single precision as well.
-/
import Idealize.ShloMosaic.PureOps.Ideal
import Idealize.ShloMosaic.PureOps.Ideal.Laws
import Idealize.ShloMosaic.Lib.ValueIdx

noncomputable section

namespace Cert.LibDotFormats

open Idealize.ShloMosaic Idealize.ShloMosaic.ValueIdx
open scoped BigOperators

variable {A K B : Nat}

/-! ## Rows by columns: `[A, K] × [K, B]`, dimension numbers `[1] × [0]` -/

/-- Dimension numbers `[1] × [0]`, free axes `[0]` and `[1]`, no batch: the record is `DotDims.plain`. -/
theorem eq_plain (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) : d = DotDims.plain A K B := by
  cases d
  simp only at hlc hrc hln hrn hlb hrb
  subst hlc hrc hln hrn hlb hrb
  rfl

theorem plain_rank : (DotDims.plain A K B).contr.rank = 1 := rfl
theorem plain_size : (DotDims.plain A K B).contr.size ⟨0, by rw [plain_rank]; exact Nat.one_pos⟩ = K := rfl

theorem plain_lhs (p : Fin A) (q : Fin B) (k : Fin K) :
    (DotDims.plain A K B).lhsIdx (ix2 p q) ((contrEquiv1 (DotDims.plain A K B) K plain_rank plain_size).symm k) = ix2 p k := by
  funext a
  apply Fin.ext
  match a with
  | ⟨0, _⟩ => rfl
  | ⟨1, _⟩ => rfl

theorem plain_rhs (p : Fin A) (q : Fin B) (k : Fin K) :
    (DotDims.plain A K B).rhsIdx (ix2 p q) ((contrEquiv1 (DotDims.plain A K B) K plain_rank plain_size).symm k) = ix2 k q := by
  funext a
  apply Fin.ext
  match a with
  | ⟨0, _⟩ => rfl
  | ⟨1, _⟩ => rfl

/-- The sum over the contraction index is the sum over `k : Fin K` of `f (p, k) · g (k, q)`. -/
theorem plain_sum (f : (⟨2, ![A, K]⟩ : Shape).Idx → EReal) (g : (⟨2, ![K, B]⟩ : Shape).Idx → EReal) (p : Fin A) (q : Fin B) :
    ∑ k : (DotDims.plain A K B).contr.Idx, f ((DotDims.plain A K B).lhsIdx (ix2 p q) k) * g ((DotDims.plain A K B).rhsIdx (ix2 p q) k)
      = ∑ k : Fin K, f (ix2 p k) * g (ix2 k q) := by
  rw [← Equiv.sum_comp (contrEquiv1 (DotDims.plain A K B) K plain_rank plain_size).symm]
  refine Finset.sum_congr rfl fun k _ => ?_
  rw [plain_lhs, plain_rhs]

/-- A product into the zero accumulator, at `(p, q)`: `∑ k, lhs (p, k) · rhs (k, q)`. -/
theorem matmul_cols_zero_apply {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant ⟨2, ![A, B]⟩ .f32 0x00000000#32) (ix2 p q) = ∑ k : Fin K, lhs (ix2 p k) * rhs (ix2 k q) := by
  rw [eq_plain d hlc hrc hln hrn hlb hrb, Ideal.matmul_constant_zero_apply]
  exact plain_sum lhs rhs p q

/-! ## Rows by rows: `[A, K] × [B, K]`, dimension numbers `[1] × [1]` -/

/-- Dimension numbers `[1] × [1]`, free axes `[0]` and `[0]`, no batch: the record is `DotDims.transposedRhs`. -/
theorem eq_transposedRhs (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = []) : d = DotDims.transposedRhs A K B := by
  cases d
  simp only at hlc hrc hln hrn hlb hrb
  subst hlc hrc hln hrn hlb hrb
  rfl

theorem rows_rank : (DotDims.transposedRhs A K B).contr.rank = 1 := rfl
theorem rows_size : (DotDims.transposedRhs A K B).contr.size ⟨0, by rw [rows_rank]; exact Nat.one_pos⟩ = K := rfl

theorem rows_lhs (p : Fin A) (q : Fin B) (k : Fin K) :
    (DotDims.transposedRhs A K B).lhsIdx (ix2 p q) ((contrEquiv1 (DotDims.transposedRhs A K B) K rows_rank rows_size).symm k) = ix2 p k := by
  funext a
  apply Fin.ext
  match a with
  | ⟨0, _⟩ => rfl
  | ⟨1, _⟩ => rfl

theorem rows_rhs (p : Fin A) (q : Fin B) (k : Fin K) :
    (DotDims.transposedRhs A K B).rhsIdx (ix2 p q) ((contrEquiv1 (DotDims.transposedRhs A K B) K rows_rank rows_size).symm k) = ix2 q k := by
  funext a
  apply Fin.ext
  match a with
  | ⟨0, _⟩ => rfl
  | ⟨1, _⟩ => rfl

/-- The sum over the contraction index is the sum over `k : Fin K` of `f (p, k) · g (q, k)`. -/
theorem rows_sum (f : (⟨2, ![A, K]⟩ : Shape).Idx → EReal) (g : (⟨2, ![B, K]⟩ : Shape).Idx → EReal) (p : Fin A) (q : Fin B) :
    ∑ k : (DotDims.transposedRhs A K B).contr.Idx,
        f ((DotDims.transposedRhs A K B).lhsIdx (ix2 p q) k) * g ((DotDims.transposedRhs A K B).rhsIdx (ix2 p q) k)
      = ∑ k : Fin K, f (ix2 p k) * g (ix2 q k) := by
  rw [← Equiv.sum_comp (contrEquiv1 (DotDims.transposedRhs A K B) K rows_rank rows_size).symm]
  refine Finset.sum_congr rfl fun k _ => ?_
  rw [rows_lhs, rows_rhs]

/-- A product into the zero accumulator with the right operand contracted on its last axis, at `(p, q)`:
    `∑ k, lhs (p, k) · rhs (q, k)`. -/
theorem matmul_rows_zero_apply {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (lhs : FVec Ideal ⟨2, ![A, K]⟩ φ₁) (rhs : FVec Ideal ⟨2, ![B, K]⟩ φ₂)
    (p : Fin A) (q : Fin B) :
    FloatOps.matmul d prec lhs rhs (constant ⟨2, ![A, B]⟩ .f32 0x00000000#32) (ix2 p q) = ∑ k : Fin K, lhs (ix2 p k) * rhs (ix2 q k) := by
  rw [eq_transposedRhs d hlc hrc hln hrn hlb hrb, Ideal.matmul_constant_zero_apply]
  exact rows_sum lhs rhs p q

end Cert.LibDotFormats

end
-- ==== Proof.Moments.lean ====
/-
  The two moments of a sum of products of independent Gaussians, as functions of the four argument arrays over
  the extended reals. With rows `b` of the branch arrays (means `am`, variances `av`) and rows `g` of the trunk
  arrays (means `pm`, variances `pv`), each row holding 16 latent coordinates `k`:

    mean (b, g) = ∑ k, am (b, k) · pm (g, k)
    var  (b, g) = (∑ k, av (b, k) · (pm (g, k) · pm (g, k)) + ∑ k, (am (b, k) · am (b, k)) · pv (g, k))
                    + ∑ k, av (b, k) · pv (g, k)

  The entry at `(b, g)` depends on row `b` of the branch arrays and row `g` of the trunk arrays only, so the
  same two formulas describe a tile of the result computed from a tile of rows of each operand; they are stated
  for any number of rows. The sums are written in the one grouping both programs use, so no law of the extended
  reals is needed to compare them.
-/
import Idealize.ShloMosaic.PureOps.Ideal
import Idealize.ShloMosaic.Lib.ValueIdx

noncomputable section

namespace Cert.Moments

open Idealize.ShloMosaic Idealize.ShloMosaic.ValueIdx
open scoped BigOperators

variable {B G : Nat}

/-- The first moment at `(b, g)`: the inner product of row `b` of the branch means with row `g` of the trunk means. -/
def meanAt (am : (⟨2, ![B, 16]⟩ : Shape).Idx → EReal) (pm : (⟨2, ![G, 16]⟩ : Shape).Idx → EReal) (b : Fin B) (g : Fin G) : EReal :=
  ∑ k : Fin 16, am (ix2 b k) * pm (ix2 g k)

/-- The second central moment at `(b, g)`: three inner products over the latent coordinate, added left to right. -/
def varAt (am av : (⟨2, ![B, 16]⟩ : Shape).Idx → EReal) (pm pv : (⟨2, ![G, 16]⟩ : Shape).Idx → EReal) (b : Fin B) (g : Fin G) : EReal :=
  (∑ k : Fin 16, av (ix2 b k) * (pm (ix2 g k) * pm (ix2 g k)) + ∑ k : Fin 16, (am (ix2 b k) * am (ix2 b k)) * pv (ix2 g k))
    + ∑ k : Fin 16, av (ix2 b k) * pv (ix2 g k)

/-- The array of first moments. -/
def mean (am : (⟨2, ![B, 16]⟩ : Shape).Idx → EReal) (pm : (⟨2, ![G, 16]⟩ : Shape).Idx → EReal) : (⟨2, ![B, G]⟩ : Shape).Idx → EReal :=
  fun i => meanAt am pm (i 0) (i 1)

/-- The array of second moments. -/
def var (am av : (⟨2, ![B, 16]⟩ : Shape).Idx → EReal) (pm pv : (⟨2, ![G, 16]⟩ : Shape).Idx → EReal) : (⟨2, ![B, G]⟩ : Shape).Idx → EReal :=
  fun i => varAt am av pm pv (i 0) (i 1)

/-- A tile's first moment is the array's, when the tile's rows are the array's rows. -/
theorem meanAt_congr {B' G' : Nat} (x0 : (⟨2, ![B', 16]⟩ : Shape).Idx → EReal) (x2 : (⟨2, ![G', 16]⟩ : Shape).Idx → EReal)
    (am : (⟨2, ![B, 16]⟩ : Shape).Idx → EReal) (pm : (⟨2, ![G, 16]⟩ : Shape).Idx → EReal) (p : Fin B') (q : Fin G') (b : Fin B) (g : Fin G)
    (h0 : ∀ k : Fin 16, x0 (ix2 p k) = am (ix2 b k)) (h2 : ∀ k : Fin 16, x2 (ix2 q k) = pm (ix2 g k)) :
    meanAt x0 x2 p q = meanAt am pm b g := by
  unfold meanAt
  exact Finset.sum_congr rfl fun k _ => by rw [h0 k, h2 k]

/-- A tile's second moment is the array's, when the tile's rows are the array's rows. -/
theorem varAt_congr {B' G' : Nat} (x0 x1 : (⟨2, ![B', 16]⟩ : Shape).Idx → EReal) (x2 x3 : (⟨2, ![G', 16]⟩ : Shape).Idx → EReal)
    (am av : (⟨2, ![B, 16]⟩ : Shape).Idx → EReal) (pm pv : (⟨2, ![G, 16]⟩ : Shape).Idx → EReal) (p : Fin B') (q : Fin G') (b : Fin B) (g : Fin G)
    (h0 : ∀ k : Fin 16, x0 (ix2 p k) = am (ix2 b k)) (h1 : ∀ k : Fin 16, x1 (ix2 p k) = av (ix2 b k))
    (h2 : ∀ k : Fin 16, x2 (ix2 q k) = pm (ix2 g k)) (h3 : ∀ k : Fin 16, x3 (ix2 q k) = pv (ix2 g k)) :
    varAt x0 x1 x2 x3 p q = varAt am av pm pv b g := by
  unfold varAt
  have e1 : ∑ k : Fin 16, x1 (ix2 p k) * (x2 (ix2 q k) * x2 (ix2 q k)) = ∑ k : Fin 16, av (ix2 b k) * (pm (ix2 g k) * pm (ix2 g k)) :=
    Finset.sum_congr rfl fun k _ => by rw [h1 k, h2 k]
  have e2 : ∑ k : Fin 16, (x0 (ix2 p k) * x0 (ix2 p k)) * x3 (ix2 q k) = ∑ k : Fin 16, (am (ix2 b k) * am (ix2 b k)) * pv (ix2 g k) :=
    Finset.sum_congr rfl fun k _ => by rw [h0 k, h3 k]
  have e3 : ∑ k : Fin 16, x1 (ix2 p k) * x3 (ix2 q k) = ∑ k : Fin 16, av (ix2 b k) * pv (ix2 g k) :=
    Finset.sum_congr rfl fun k _ => by rw [h1 k, h3 k]
  rw [e1, e2, e3]

end Cert.Moments

end
-- ==== Proof.TileValue.lean ====
/-
  What the kernel body stores in one tile, entry by entry.

  The body reads a tile of 512 rows of each branch array and a tile of 1024 rows of each trunk array and writes two
  512 × 1024 tiles. Each of its four products contracts the 16 latent coordinates of a branch row against those of
  a trunk row (the second axis of both operands) into a zero accumulator, so at the extended reals it is a plain sum
  over the latent coordinate; narrowing an operand to half precision changes nothing there. Hence the first stored
  tile is the first moment of the tiles' rows, and the second stored tile their second moment, in the grouping
  `Moments.varAt` spells.
-/
import proofs.«148017_j52166672777688_1_alg».proof.Proof.Gen.KernelIdeal.Skeleton
import proofs.«148017_j52166672777688_1_alg».proof.Proof.LibDotFormats
import proofs.«148017_j52166672777688_1_alg».proof.Proof.Moments

noncomputable section

namespace Cert.KernelIdeal.Tile

open Cert.KernelIdeal Cert.KernelIdeal.Gen Idealize.ShloMosaic Idealize.ShloMosaic.ValueIdx
open scoped BigOperators

/-- One product of the body at `(p, q)`: the sum over the latent coordinate of row `p` of the left tile against
    row `q` of the right tile. -/
theorem product_apply {φ₁ φ₂ : FTy} (lhs : FVec Ideal S512x16 φ₁) (rhs : FVec Ideal S1024x16 φ₂) (p : Fin 512) (q : Fin 1024) :
    matmul dot_S512x16_S1024x16_S512x1024_1_1_0_0_n_n none lhs rhs (constant S512x1024 .f32 0x00000000#32) (ix2 p q)
      = ∑ k : Fin 16, lhs (ix2 p k) * rhs (ix2 q k) :=
  Cert.LibDotFormats.matmul_rows_zero_apply dot_S512x16_S1024x16_S512x1024_1_1_0_0_n_n rfl rfl rfl rfl rfl rfl none lhs rhs p q

/-- The first stored tile at `(p, q)` is the first moment of the tiles' rows. -/
theorem mean_tile (x0 : FVec Ideal S512x16 .f32) (x2 : FVec Ideal S1024x16 .f32) (p : Fin 512) (q : Fin 1024) :
    k0_pay1 (F := Ideal) x0 x2 (ix2 p q) = Cert.Moments.meanAt x0 x2 p q := by
  unfold k0_pay1
  exact product_apply (truncf .bf16 x0 bitsLt_bf16_f32) (truncf .bf16 x2 bitsLt_bf16_f32) p q

/-- The second stored tile at `(p, q)` is the second moment of the tiles' rows. -/
theorem var_tile (x0 x1 : FVec Ideal S512x16 .f32) (x2 x3 : FVec Ideal S1024x16 .f32) (p : Fin 512) (q : Fin 1024) :
    k0_pay2 (F := Ideal) x0 x1 x2 x3 (ix2 p q) = Cert.Moments.varAt x0 x1 x2 x3 p q := by
  unfold k0_pay2
  have e1 := product_apply (truncf .bf16 x1 bitsLt_bf16_f32) (truncf .bf16 (mulf x2 x2) bitsLt_bf16_f32) p q
  have e2 := product_apply (truncf .bf16 (mulf x0 x0) bitsLt_bf16_f32) (truncf .bf16 x3 bitsLt_bf16_f32) p q
  have e3 := product_apply (truncf .bf16 x1 bitsLt_bf16_f32) (truncf .bf16 x3 bitsLt_bf16_f32) p q
  exact congrArg₂ (· + ·) (congrArg₂ (· + ·) e1 e2) e3

end Cert.KernelIdeal.Tile

end
-- ==== Proof.ArrayValue.lean ====
/-
  From tiles to the whole result arrays.

  The 4 × 16 grid walks the result in tiles of 512 × 1024: at the point with tile coordinates `(bi, bj)` the body sees
  rows `bi · 512 …` of the two branch arrays and rows `bj · 1024 …` of the two trunk arrays, all 16 latent columns of
  each, and writes tile `(bi, bj)` of both results. Entry `(p, q)` of that tile is entry `(bi · 512 + p, bj · 1024 + q)`
  of the array, and the rows it is computed from are rows `bi · 512 + p` and `bj · 1024 + q` of the operands — exactly
  the rows the moment at that array entry names. So every point writes a tile of ONE whole-array function, the tiles
  fill the arrays, and after the run the first result is `Moments.mean` and the second `Moments.var` of the arguments.
-/
import proofs.«148017_j52166672777688_1_alg».proof.Proof.Gen.KernelIdeal.Value
import proofs.«148017_j52166672777688_1_alg».proof.Proof.TileValue

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 :=
  funext fun a => by match a with | ⟨0, _⟩ => rfl | ⟨1, _⟩ => rfl

/-! ## The tiles of the operands and the arrays they are cut from -/

/-- The tile of branch means the body sees at point `t`. -/
abbrev amTile (c : Dev nD) (t : Fin cfg0.N) : FVec Ideal S512x16 .f32 := iblk m c 0 t
/-- The tile of branch variances at point `t`. -/
abbrev avTile (c : Dev nD) (t : Fin cfg0.N) : FVec Ideal S512x16 .f32 := iblk m c 1 t
/-- The tile of trunk means at point `t`. -/
abbrev pmTile (c : Dev nD) (t : Fin cfg0.N) : FVec Ideal S1024x16 .f32 := iblk m c 2 t
/-- The tile of trunk variances at point `t`. -/
abbrev pvTile (c : Dev nD) (t : Fin cfg0.N) : FVec Ideal S1024x16 .f32 := iblk m c 3 t

/-- The four argument arrays. -/
abbrev am (c : Dev nD) : FVec Ideal S2048x16 .f32 := V m c main_arg0
abbrev av (c : Dev nD) : FVec Ideal S2048x16 .f32 := V m c main_arg1
abbrev pm (c : Dev nD) : FVec Ideal S16384x16 .f32 := V m c main_arg2
abbrev pv (c : Dev nD) : FVec Ideal S16384x16 .f32 := V m c main_arg3

/-- Where entry `j` of the first result's tile at point `t` lies in the array. -/
abbrev at4 (t : Fin cfg0.N) (j : S512x1024.Idx) : S2048x16384.Idx := ((cfg0.win 4).blk t).view.emb j
/-- Where entry `j` of the second result's tile at point `t` lies in the array. -/
abbrev at5 (t : Fin cfg0.N) (j : S512x1024.Idx) : S2048x16384.Idx := ((cfg0.win 5).blk t).view.emb j

/-! ## How the tiles move over the grid -/

/-- The tile coordinates, decided over the 64 points: the branch tiles follow the result's row tile, the trunk tiles
    its column tile, every operand tile spans all latent columns, both results move together, and the result's tile
    coordinates stay inside the 4 × 16 tiling. -/
theorem tile_coords : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = win0_4.index t (1 : Fin 2) ∧ win0_2.index t (1 : Fin 2) = 0
    ∧ win0_3.index t (0 : Fin 2) = win0_4.index t (1 : Fin 2) ∧ win0_3.index t (1 : Fin 2) = 0
    ∧ win0_5.index t (0 : Fin 2) = win0_4.index t (0 : Fin 2) ∧ win0_5.index t (1 : Fin 2) = win0_4.index t (1 : Fin 2)
    ∧ win0_4.index t (0 : Fin 2) ≤ 3 ∧ win0_4.index t (1 : Fin 2) ≤ 15 :=
  (by decide +kernel : ∀ t : Fin grid0.N, _)

/-- Every tile of the first result is some point's. -/
theorem tile_onto4 : ∀ (q0 : Fin 4) (q1 : Fin 16), ∃ t : Fin cfg0.N, win0_4.index t = ![q0.val, q1.val] :=
  (by decide +kernel : ∀ (q0 : Fin 4) (q1 : Fin 16), ∃ t : Fin grid0.N, win0_4.index t = ![q0.val, q1.val])

/-- Every tile of the second result is some point's. -/
theorem tile_onto5 : ∀ (q0 : Fin 4) (q1 : Fin 16), ∃ t : Fin cfg0.N, win0_5.index t = ![q0.val, q1.val] :=
  (by decide +kernel : ∀ (q0 : Fin 4) (q1 : Fin 16), ∃ t : Fin grid0.N, win0_5.index t = ![q0.val, q1.val])

/-! ## A tile's rows are the array's rows -/

/-- Row `p` of the branch-mean tile is the array's row under entry `(p, ·)` of the first result's tile. -/
theorem amTile_row4 (c : Dev nD) (t : Fin cfg0.N) (j : S512x1024.Idx) (k : Fin 16) :
    amTile m c t (ix2 (j 0) k) = am m c (ix2 (at4 t j 0) k) := by
  obtain ⟨e0, e1, -⟩ := tile_coords t
  show V m c main_arg0 (((cfg0.win 0).blk t).view.emb (ix2 (j 0) k)) = V m c main_arg0 (ix2 (at4 t j 0) k)
  refine congrArg (V m c main_arg0) (funext fun a => Fin.ext ?_)
  match a with
  | ⟨0, _⟩ => show win0_0.index t (0 : Fin 2) * 512 + 1 * (j 0).val = win0_4.index t (0 : Fin 2) * 512 + 1 * (j 0).val; omega
  | ⟨1, _⟩ => show win0_0.index t (1 : Fin 2) * 16 + 1 * k.val = k.val; omega

/-- Row `q` of the trunk-mean tile is the array's row under entry `(·, q)` of the first result's tile. -/
theorem pmTile_row4 (c : Dev nD) (t : Fin cfg0.N) (j : S512x1024.Idx) (k : Fin 16) :
    pmTile m c t (ix2 (j 1) k) = pm m c (ix2 (at4 t j 1) k) := by
  obtain ⟨-, -, -, -, e0, e1, -⟩ := tile_coords t
  show V m c main_arg2 (((cfg0.win 2).blk t).view.emb (ix2 (j 1) k)) = V m c main_arg2 (ix2 (at4 t j 1) k)
  refine congrArg (V m c main_arg2) (funext fun a => Fin.ext ?_)
  match a with
  | ⟨0, _⟩ => show win0_2.index t (0 : Fin 2) * 1024 + 1 * (j 1).val = win0_4.index t (1 : Fin 2) * 1024 + 1 * (j 1).val; omega
  | ⟨1, _⟩ => show win0_2.index t (1 : Fin 2) * 16 + 1 * k.val = k.val; omega

/-- The same four facts under the second result's tile, which lies where the first one's does. -/
theorem amTile_row5 (c : Dev nD) (t : Fin cfg0.N) (j : S512x1024.Idx) (k : Fin 16) :
    amTile m c t (ix2 (j 0) k) = am m c (ix2 (at5 t j 0) k) := by
  obtain ⟨e0, e1, -, -, -, -, -, -, f0, -⟩ := tile_coords t
  show V m c main_arg0 (((cfg0.win 0).blk t).view.emb (ix2 (j 0) k)) = V m c main_arg0 (ix2 (at5 t j 0) k)
  refine congrArg (V m c main_arg0) (funext fun a => Fin.ext ?_)
  match a with
  | ⟨0, _⟩ => show win0_0.index t (0 : Fin 2) * 512 + 1 * (j 0).val = win0_5.index t (0 : Fin 2) * 512 + 1 * (j 0).val; omega
  | ⟨1, _⟩ => show win0_0.index t (1 : Fin 2) * 16 + 1 * k.val = k.val; omega

theorem avTile_row5 (c : Dev nD) (t : Fin cfg0.N) (j : S512x1024.Idx) (k : Fin 16) :
    avTile m c t (ix2 (j 0) k) = av m c (ix2 (at5 t j 0) k) := by
  obtain ⟨-, -, e0, e1, -, -, -, -, f0, -⟩ := tile_coords t
  show V m c main_arg1 (((cfg0.win 1).blk t).view.emb (ix2 (j 0) k)) = V m c main_arg1 (ix2 (at5 t j 0) k)
  refine congrArg (V m c main_arg1) (funext fun a => Fin.ext ?_)
  match a with
  | ⟨0, _⟩ => show win0_1.index t (0 : Fin 2) * 512 + 1 * (j 0).val = win0_5.index t (0 : Fin 2) * 512 + 1 * (j 0).val; omega
  | ⟨1, _⟩ => show win0_1.index t (1 : Fin 2) * 16 + 1 * k.val = k.val; omega

theorem pmTile_row5 (c : Dev nD) (t : Fin cfg0.N) (j : S512x1024.Idx) (k : Fin 16) :
    pmTile m c t (ix2 (j 1) k) = pm m c (ix2 (at5 t j 1) k) := by
  obtain ⟨-, -, -, -, e0, e1, -, -, -, f1, -⟩ := tile_coords t
  show V m c main_arg2 (((cfg0.win 2).blk t).view.emb (ix2 (j 1) k)) = V m c main_arg2 (ix2 (at5 t j 1) k)
  refine congrArg (V m c main_arg2) (funext fun a => Fin.ext ?_)
  match a with
  | ⟨0, _⟩ => show win0_2.index t (0 : Fin 2) * 1024 + 1 * (j 1).val = win0_5.index t (1 : Fin 2) * 1024 + 1 * (j 1).val; omega
  | ⟨1, _⟩ => show win0_2.index t (1 : Fin 2) * 16 + 1 * k.val = k.val; omega

theorem pvTile_row5 (c : Dev nD) (t : Fin cfg0.N) (j : S512x1024.Idx) (k : Fin 16) :
    pvTile m c t (ix2 (j 1) k) = pv m c (ix2 (at5 t j 1) k) := by
  obtain ⟨-, -, -, -, -, -, e0, e1, -, f1, -⟩ := tile_coords t
  show V m c main_arg3 (((cfg0.win 3).blk t).view.emb (ix2 (j 1) k)) = V m c main_arg3 (ix2 (at5 t j 1) k)
  refine congrArg (V m c main_arg3) (funext fun a => Fin.ext ?_)
  match a with
  | ⟨0, _⟩ => show win0_3.index t (0 : Fin 2) * 1024 + 1 * (j 1).val = win0_5.index t (1 : Fin 2) * 1024 + 1 * (j 1).val; omega
  | ⟨1, _⟩ => show win0_3.index t (1 : Fin 2) * 16 + 1 * k.val = k.val; omega

/-! ## What a point writes back is a tile of the whole-array moment -/

/-- Point `t` writes tile `t` of the array of first moments. -/
theorem flushed4_eq (c : Dev nD) (t : Fin cfg0.N) :
    (dats m 0 c).flushed 4 t = ((cfg0.win 4).blk t).view.read (Elt Ideal) (Cert.Moments.mean (am m c) (pm m c)) := by
  rw [Cert.KernelIdeal.Value.flushed4]
  unfold out0_4
  rw [View.canon_unit_zero zero_offsets]
  simp only [View.ld_unit_zero (S := S512x16) zero_offsets, View.ld_unit_zero (S := S1024x16) zero_offsets]
  funext j
  show k0_pay1 (F := Ideal) (amTile m c t) (pmTile m c t) j = Cert.Moments.meanAt (am m c) (pm m c) (at4 t j 0) (at4 t j 1)
  refine ((congrArg (k0_pay1 (F := Ideal) (amTile m c t) (pmTile m c t)) (eq_ix2 j)).trans
    (Cert.KernelIdeal.Tile.mean_tile (amTile m c t) (pmTile m c t) (j 0) (j 1))).trans ?_
  exact Cert.Moments.meanAt_congr (amTile m c t) (pmTile m c t) (am m c) (pm m c) (j 0) (j 1) (at4 t j 0) (at4 t j 1)
    (fun k => amTile_row4 m c t j k) (fun k => pmTile_row4 m c t j k)

/-- Point `t` writes tile `t` of the array of second moments. -/
theorem flushed5_eq (c : Dev nD) (t : Fin cfg0.N) :
    (dats m 0 c).flushed 5 t = ((cfg0.win 5).blk t).view.read (Elt Ideal) (Cert.Moments.var (am m c) (av m c) (pm m c) (pv m c)) := by
  rw [Cert.KernelIdeal.Value.flushed5]
  unfold out0_5
  rw [View.canon_unit_zero zero_offsets]
  simp only [View.ld_unit_zero (S := S512x16) zero_offsets, View.ld_unit_zero (S := S1024x16) zero_offsets]
  funext j
  show k0_pay2 (F := Ideal) (amTile m c t) (avTile m c t) (pmTile m c t) (pvTile m c t) j
    = Cert.Moments.varAt (am m c) (av m c) (pm m c) (pv m c) (at5 t j 0) (at5 t j 1)
  refine ((congrArg (k0_pay2 (F := Ideal) (amTile m c t) (avTile m c t) (pmTile m c t) (pvTile m c t)) (eq_ix2 j)).trans
    (Cert.KernelIdeal.Tile.var_tile (amTile m c t) (avTile m c t) (pmTile m c t) (pvTile m c t) (j 0) (j 1))).trans ?_
  exact Cert.Moments.varAt_congr (amTile m c t) (avTile m c t) (pmTile m c t) (pvTile m c t) (am m c) (av m c) (pm m c) (pv m c)
    (j 0) (j 1) (at5 t j 0) (at5 t j 1)
    (fun k => amTile_row5 m c t j k) (fun k => avTile_row5 m c t j k) (fun k => pmTile_row5 m c t j k) (fun k => pvTile_row5 m c t j k)

/-! ## The tiles fill the arrays -/

/-- An entry of the first result is in point `t`'s tile iff each coordinate is in the tile's range on its axis. -/
theorem mem_tile4 (t : Fin cfg0.N) (i : S2048x16384.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v0_0).slice (win0_4.rect t)).set ↔ _
  rw [View.set_slice_whole, Rect.mem_set_unit]
  exact Iff.rfl

theorem mem_tile5 (t : Fin cfg0.N) (i : S2048x16384.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v0_1).slice (win0_5.rect t)).set ↔ _
  rw [View.set_slice_whole, Rect.mem_set_unit]
  exact Iff.rfl

/-- Entry `(r, s)` of the first result lies in the tile with coordinates `(r / 512, s / 1024)`. -/
theorem cover4 (i : S2048x16384.Idx) : ∃ t : Fin cfg0.N, (cfg0.win 4).flush t = true ∧ i ∈ ((cfg0.win 4).blk t).view.set := by
  have hi0 : (i 0).val < 2048 := (i 0).isLt
  have hi1 : (i 1).val < 16384 := (i 1).isLt
  obtain ⟨t, ht⟩ := tile_onto4 ⟨(i 0).val / 512, by omega⟩ ⟨(i 1).val / 1024, by omega⟩
  have q0 : win0_4.index t (0 : Fin 2) = (i 0).val / 512 := congrFun ht 0
  have q1 : win0_4.index t (1 : Fin 2) = (i 1).val / 1024 := congrFun ht 1
  refine ⟨t, flush0_4 t, ?_⟩
  rw [mem_tile4]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1024 ≤ (i 1).val ∧ (i 1).val < win0_4.index t (1 : Fin 2) * 1024 + 1024; omega

/-- Likewise for the second result. -/
theorem cover5 (i : S2048x16384.Idx) : ∃ t : Fin cfg0.N, (cfg0.win 5).flush t = true ∧ i ∈ ((cfg0.win 5).blk t).view.set := by
  have hi0 : (i 0).val < 2048 := (i 0).isLt
  have hi1 : (i 1).val < 16384 := (i 1).isLt
  obtain ⟨t, ht⟩ := tile_onto5 ⟨(i 0).val / 512, by omega⟩ ⟨(i 1).val / 1024, by omega⟩
  have q0 : win0_5.index t (0 : Fin 2) = (i 0).val / 512 := congrFun ht 0
  have q1 : win0_5.index t (1 : Fin 2) = (i 1).val / 1024 := congrFun ht 1
  refine ⟨t, flush0_5 t, ?_⟩
  rw [mem_tile5]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1024 ≤ (i 1).val ∧ (i 1).val < win0_5.index t (1 : Fin 2) * 1024 + 1024; omega

/-! ## The arrays after the run -/

/-- The first result ends as the array of first moments of the arguments. -/
theorem final4 (c : Dev nD) :
    (dats m 0 c).arrAt 4 cfg0.N = Cert.Moments.mean (m ((c : Thread nD τ).loc main_arg0)) (m ((c : Thread nD τ).loc main_arg2)) :=
  (dats m 0 c).arrAt_eq_of_cover 4 (Cert.Moments.mean (am m c) (pm m c)) (fun t _ => flushed4_eq m c t) cover4

/-- The second result ends as the array of second moments of the arguments. -/
theorem final5 (c : Dev nD) :
    (dats m 0 c).arrAt 5 cfg0.N = Cert.Moments.var (m ((c : Thread nD τ).loc main_arg0)) (m ((c : Thread nD τ).loc main_arg1))
      (m ((c : Thread nD τ).loc main_arg2)) (m ((c : Thread nD τ).loc main_arg3)) :=
  (dats m 0 c).arrAt_eq_of_cover 5 (Cert.Moments.var (am m c) (av m c) (pm m c) (pv m c)) (fun t _ => flushed5_eq m c t) cover5

/-- Every weakly fair execution of the idealized kernel ends with the two results at the two moments of the
    arguments, and the arguments as launched. -/
theorem run : θ_run defs (onTc (τ := τ) (main (F := Ideal))) ⟨m, fun _ => 0, ρ⟩ fun r => ∀ c : Dev nD,
      r.2.mem ((c : Thread nD τ).loc main_v0_0) = Cert.Moments.mean (m ((c : Thread nD τ).loc main_arg0)) (m ((c : Thread nD τ).loc main_arg2))
      ∧ r.2.mem ((c : Thread nD τ).loc main_v0_1) = Cert.Moments.var (m ((c : Thread nD τ).loc main_arg0)) (m ((c : Thread nD τ).loc main_arg1))
          (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (Cert.KernelIdeal.Value.run_blocks m ρ)

end Cert.KernelIdeal.Whole

end
-- ==== Proof.RefValue.lean ====
/-
  The reference's two results are the two moments.

  The reference forms the first moment as one contraction of the branch means against the trunk means over the
  latent axis (the second axis of both), and the second moment as three such contractions — of the branch variances
  against the squared trunk means, of the squared branch means against the trunk variances, and of the two variance
  arrays — added left to right. At the extended reals each contraction is the plain sum over the 16 latent
  coordinates, so entry by entry these are the formulas of `Moments.meanAt` and `Moments.varAt`, term for term.
-/
import proofs.«148017_j52166672777688_1_alg».proof.Proof.Gen.ReferenceIdeal.Read
import proofs.«148017_j52166672777688_1_alg».proof.Proof.Moments

noncomputable section

namespace Cert.ReferenceIdeal.Whole

open Cert.ReferenceIdeal Cert.ReferenceIdeal.Gen Cert.ReferenceIdeal.Read Idealize.ShloMosaic Idealize.ShloMosaic.ValueIdx
open scoped BigOperators

/-! ## The operand rows a contraction reads at a result entry -/

theorem lrow0 (i : S2048x16384.Idx) (k : Fin 16) : lidx_main_v0 i k = ix2 (i 0) k :=
  funext fun a => Fin.ext (by match a with | ⟨0, _⟩ => rfl | ⟨1, _⟩ => rfl)
theorem rrow0 (i : S2048x16384.Idx) (k : Fin 16) : ridx_main_v0 i k = ix2 (i 1) k :=
  funext fun a => Fin.ext (by match a with | ⟨0, _⟩ => rfl | ⟨1, _⟩ => rfl)
theorem lrow2 (i : S2048x16384.Idx) (k : Fin 16) : lidx_main_v2 i k = ix2 (i 0) k :=
  funext fun a => Fin.ext (by match a with | ⟨0, _⟩ => rfl | ⟨1, _⟩ => rfl)
theorem rrow2 (i : S2048x16384.Idx) (k : Fin 16) : ridx_main_v2 i k = ix2 (i 1) k :=
  funext fun a => Fin.ext (by match a with | ⟨0, _⟩ => rfl | ⟨1, _⟩ => rfl)
theorem lrow4 (i : S2048x16384.Idx) (k : Fin 16) : lidx_main_v4 i k = ix2 (i 0) k :=
  funext fun a => Fin.ext (by match a with | ⟨0, _⟩ => rfl | ⟨1, _⟩ => rfl)
theorem rrow4 (i : S2048x16384.Idx) (k : Fin 16) : ridx_main_v4 i k = ix2 (i 1) k :=
  funext fun a => Fin.ext (by match a with | ⟨0, _⟩ => rfl | ⟨1, _⟩ => rfl)
theorem lrow6 (i : S2048x16384.Idx) (k : Fin 16) : lidx_main_v6 i k = ix2 (i 0) k :=
  funext fun a => Fin.ext (by match a with | ⟨0, _⟩ => rfl | ⟨1, _⟩ => rfl)
theorem rrow6 (i : S2048x16384.Idx) (k : Fin 16) : ridx_main_v6 i k = ix2 (i 1) k :=
  funext fun a => Fin.ext (by match a with | ⟨0, _⟩ => rfl | ⟨1, _⟩ => rfl)

/-! ## The two results -/

/-- The reference's first result is the array of first moments. -/
theorem mean_ref (x0 : (⟨S2048x16, .f32⟩ : BufTy).Contents (Elt Ideal)) (x2 : (⟨S16384x16, .f32⟩ : BufTy).Contents (Elt Ideal)) :
    val_main_v0 (F := Ideal) x0 x2 = Cert.Moments.mean (B := 2048) (G := 16384) x0 x2 := by
  funext i
  rw [val_main_v0_apply]
  simp only [lrow0, rrow0]
  rfl

/-- The reference's second result is the array of second moments. -/
theorem var_ref (x0 x1 : (⟨S2048x16, .f32⟩ : BufTy).Contents (Elt Ideal)) (x2 x3 : (⟨S16384x16, .f32⟩ : BufTy).Contents (Elt Ideal)) :
    val_main_v7 (F := Ideal) x0 x1 x2 x3 = Cert.Moments.var (B := 2048) (G := 16384) x0 x1 x2 x3 := by
  funext i
  rw [val_main_v7_apply, val_main_v5_apply, val_main_v2_apply, val_main_v4_apply, val_main_v6_apply]
  simp only [val_main_v1_apply, val_main_v3_apply, lrow2, rrow2, lrow4, rrow4, lrow6, rrow6]
  rfl

end Cert.ReferenceIdeal.Whole

end
-- ==== Proof.lean ====
/-
  The certificate of a moment-matching kernel against its reference.

  Both programs take branch means and variances `am`, `av` (2048 rows) and trunk means and variances `pm`, `pv`
  (16384 rows), every row holding 16 latent coordinates, and return for each pair of rows `(b, g)`

    mean (b, g) = ∑ k, am (b, k) · pm (g, k)
    var  (b, g) = (∑ k, av (b, k) · pm (g, k)² + ∑ k, am (b, k)² · pv (g, k)) + ∑ k, av (b, k) · pv (g, k).

  The kernel computes them tile by tile over a 4 × 16 grid, each tile by four products into zero accumulators whose
  operands it first narrows to half precision; the reference by four whole contractions. At the extended reals a
  narrowing is the identity and both kinds of product are the plain sum over the latent coordinate, and the two
  programs add the three terms of the variance in the same order, so the two results agree term for term and no
  finiteness of the inputs is used: `Moments` states the two formulas, `TileValue` reads the body's stores as
  them, `ArrayValue` assembles the tiles into the arrays, `RefValue` reads the reference's results as them.
  The three frames are the generated ones (the reference's is its run with the results dropped), and the
  idealization rewrote nothing, so its statement is `True`.
-/
import proofs.«148017_j52166672777688_1_alg».proof.Defs
import proofs.«148017_j52166672777688_1_alg».proof.Proof.Gen.Kernel
import proofs.«148017_j52166672777688_1_alg».proof.Proof.Gen.Kernel.Skeleton
import proofs.«148017_j52166672777688_1_alg».proof.Proof.Gen.Kernel.Launch
import proofs.«148017_j52166672777688_1_alg».proof.Proof.Gen.Kernel.Points
import proofs.«148017_j52166672777688_1_alg».proof.Proof.Gen.Kernel.Frame
import proofs.«148017_j52166672777688_1_alg».proof.Proof.Gen.KernelIdeal
import proofs.«148017_j52166672777688_1_alg».proof.Proof.Gen.KernelIdeal.Skeleton
import proofs.«148017_j52166672777688_1_alg».proof.Proof.Gen.KernelIdeal.Launch
import proofs.«148017_j52166672777688_1_alg».proof.Proof.Gen.KernelIdeal.Points
import proofs.«148017_j52166672777688_1_alg».proof.Proof.Gen.KernelIdeal.Frame
import proofs.«148017_j52166672777688_1_alg».proof.Proof.Gen.ReferenceIdeal
import proofs.«148017_j52166672777688_1_alg».proof.Proof.Gen.Pre_finite_inputs
import proofs.«148017_j52166672777688_1_alg».proof.Proof.Gen.KernelIdeal.Value
import proofs.«148017_j52166672777688_1_alg».proof.Proof.Gen.ReferenceIdeal.Run
import proofs.«148017_j52166672777688_1_alg».proof.Proof.Gen.ReferenceIdeal.Read
import proofs.«148017_j52166672777688_1_alg».proof.Proof.ArrayValue
import proofs.«148017_j52166672777688_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as launched. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the reference: its run, with what it says of the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the four arguments both programs end with the first result at the array of first
    moments and the second at the array of second moments of those arguments. -/
theorem algebraic : Cert.algebraic_KernelIdeal_ReferenceIdeal := by
  intro m ρ m' ρ' _ hagree
  refine ⟨fun c => Cert.Moments.mean (m ((c.tc : Thread Cert.KernelIdeal.nD Cert.KernelIdeal.τ).loc Cert.KernelIdeal.main_arg0))
        (m ((c.tc : Thread Cert.KernelIdeal.nD Cert.KernelIdeal.τ).loc Cert.KernelIdeal.main_arg2)),
      fun c => Cert.Moments.var (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)),
      Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.2.1]
    exact Cert.ReferenceIdeal.Whole.mean_ref _ _
  · rw [(hagree c).1, (hagree c).2.1, (hagree c).2.2.1, (hagree c).2.2.2]
    exact (Cert.ReferenceIdeal.Read.val_main_v7_eq _ _ _ _).trans (Cert.ReferenceIdeal.Whole.var_ref _ _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
